-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S2x640000 32) (main_arg2 : FVec F S128x128 .f32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩
abbrev S10000x128 : Shape := ⟨2, ![10000, 128]⟩
abbrev S10000x1 : Shape := ⟨2, ![10000, 1]⟩
abbrev S10000 : Shape := ⟨1, ![10000]⟩

abbrev nBuf : Space → Nat
  | .hbm => 31
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S100000x128, .f32⟩
  | .hbm, ⟨20, _⟩ => ⟨S640000x1, .i32⟩
  | .hbm, ⟨21, _⟩ => ⟨S100000x128, .f32⟩
  | .hbm, ⟨22, _⟩ => ⟨S_, .f32⟩
  | .hbm, ⟨23, _⟩ => ⟨S640000, .f32⟩
  | .hbm, ⟨24, _⟩ => ⟨S_, .f32⟩
  | .hbm, ⟨25, _⟩ => ⟨S100000, .f32⟩
  | .hbm, ⟨26, _⟩ => ⟨S640000x1, .i32⟩
  | .hbm, ⟨27, _⟩ => ⟨S100000, .f32⟩
  | .hbm, ⟨28, _⟩ => ⟨S100000x1, .f32⟩
  | .hbm, ⟨29, _⟩ => ⟨S1x128, .f32⟩
  | .hbm, ⟨30, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S10000x128, .f32⟩
  | .local _ .vmem, ⟨5, _⟩ => ⟨S10000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S10000x128, .f32⟩
  | .local _ .vmem, ⟨10, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  shapeCasts_S128_S1x128 : S128.ShapeCasts S1x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  reduces_S10000x128_S10000 : S10000x128.Reduces [1] S10000
  shapeCasts_S10000_S10000x1 : S10000.ShapeCasts S10000x1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S100000x128.size a
  hwx0_6 : ∀ i : grid0.Coords, EltTy.bits .f32 = 32 ∨ (Rect.block (s := S100000x128) S10000x128.size (cc0_transform_6 i) (hinb0_6 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v13) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S100000x128, .f32⟩
  | .hbm, ⟨20, _⟩ => ⟨S640000x1, .i32⟩
  | .hbm, ⟨21, _⟩ => ⟨S100000x128, .f32⟩
  | .hbm, ⟨22, _⟩ => ⟨S_, .f32⟩
  | .hbm, ⟨23, _⟩ => ⟨S640000, .f32⟩
  | .hbm, ⟨24, _⟩ => ⟨S_, .f32⟩
  | .hbm, ⟨25, _⟩ => ⟨S100000, .f32⟩
  | .hbm, ⟨26, _⟩ => ⟨S640000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S_, .f32⟩
  | .hbm, ⟨42, _⟩ => ⟨S100000, .f32⟩
  | .hbm, ⟨43, _⟩ => ⟨S100000x1, .f32⟩
  | .hbm, ⟨44, _⟩ => ⟨S100000x1, .f32⟩
  | .hbm, ⟨45, _⟩ => ⟨S_, .f32⟩
  | .hbm, ⟨46, _⟩ => ⟨S100000x1, .f32⟩
  | .hbm, ⟨47, _⟩ => ⟨S100000x1, .f32⟩
  | .hbm, ⟨48, _⟩ => ⟨S100000x128, .f32⟩
  | .hbm, ⟨49, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x128_S100000x128_1_0_0_1_n_n_wf : DotDims.WF S100000x128 S128x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.SageRow.lean ====
/-
  One node's update in a mean-aggregating graph layer, and the layer as ONE function of its arrays.

  A node with aggregated neighbour row a, in-degree count n and own feature row x first gets the linear part
      y_j = Σ_k (a_k / max(n, 1)) · W_l[k, j]  +  Σ_k x_k · W_r[k, j]  +  b_j ,
  the mean of its neighbours through W_l plus itself through W_r plus the bias; its output row is y scaled to unit
  Euclidean length, the length floored at a small positive constant so that a zero row stays zero:
      out_j = y_j / max( sqrt(Σ_l y_l²), floor ).
  All of it over the extended reals with the ideal operations. The layer applies this to every node r, with a and n
  row r of the aggregate and of the count array.
-/
import Idealize.ShloMosaic.PureOps.Ideal
import Idealize.ShloMosaic.Lib.ValueIdx

noncomputable section

open scoped BigOperators

namespace Cert.Sage

open Idealize.ShloMosaic Idealize.ShloMosaic.ValueIdx

/-- The count's floor: the single-precision word of 1. -/
abbrev one : EReal := Ideal.ofBits .f32 0x3F800000#32
/-- The length's floor: the single-precision word nearest 1e-12. -/
abbrev floor : EReal := Ideal.ofBits .f32 0x2B8CBCCC#32

/-- The linear part of a node's update, at output feature j. -/
def lin (a : Fin 128 → EReal) (n : EReal) (x : Fin 128 → EReal) (Wl Wr : Fin 128 → Fin 128 → EReal)
    (b : Fin 128 → EReal) (j : Fin 128) : EReal :=
  (∑ k : Fin 128, Ideal.div (a k) (max n one) * Wl k j + ∑ k : Fin 128, x k * Wr k j) + b j

/-- A node's output row: the linear part over its Euclidean length, the length floored. -/
def row (a : Fin 128 → EReal) (n : EReal) (x : Fin 128 → EReal) (Wl Wr : Fin 128 → Fin 128 → EReal)
    (b : Fin 128 → EReal) (j : Fin 128) : EReal :=
  Ideal.div (lin a n x Wl Wr b j)
    (max (Ideal.sqrt (∑ l : Fin 128, lin a n x Wl Wr b l * lin a n x Wl Wr b l)) floor)

/-- The layer over 100000 nodes of 128 features: node r's row from row r of the aggregate, entry r of the counts and
    row r of the features. -/
def layer (agg : (⟨2, ![100000, 128]⟩ : Shape).Idx → EReal) (cnt : (⟨1, ![100000]⟩ : Shape).Idx → EReal)
    (x : (⟨2, ![100000, 128]⟩ : Shape).Idx → EReal) (Wl Wr : (⟨2, ![128, 128]⟩ : Shape).Idx → EReal)
    (b : (⟨1, ![128]⟩ : Shape).Idx → EReal) : (⟨2, ![100000, 128]⟩ : Shape).Idx → EReal :=
  fun i => row (fun k => agg (ix2 (i 0) k)) (cnt (ix1 (i 0))) (fun k => x (ix2 (i 0) k))
    (fun k j => Wl (ix2 k j)) (fun k j => Wr (ix2 k j)) (fun j => b (ix1 j)) (i 1)

end Cert.Sage

end
-- ==== Proof.RefRow.lean ====
/-
  The reference's result, read at one entry, is the specification's layer.

  After the neighbour aggregate and the counts (kept here as the two opaque stages that produce them), the reference
  floors the counts at one, lays them out as a column and across the lanes, divides the aggregate by them, multiplies
  by W_l, adds the features' product with W_r and the bias laid out down the rows, sums the squares along each row
  starting from zero, takes the root, floors it, lays that column across the lanes and divides.

  Each layout stage only renames the index, a product is the sum over the contracted coordinate and the row sum is
  zero plus the sum over the lanes: entry (r, q) is the specification's output row of node r at feature q.
-/
import proofs.«148724_j38010460569664_1_alg».proof.Proof.Gen.ReferenceIdeal.Read
import proofs.«148724_j38010460569664_1_alg».proof.Proof.SageRow
import Idealize.ShloMosaic.PureOps.Ideal.Laws
import Idealize.ShloMosaic.Lib.ValueIdx

noncomputable section

open scoped BigOperators

namespace Cert.ReferenceIdeal.Row

open Cert.ReferenceIdeal Cert.ReferenceIdeal.Read Idealize.ShloMosaic Idealize.ShloMosaic.ValueIdx

variable (x0 : (⟨S100000x128, .f32⟩ : BufTy).Contents (Elt Ideal)) (x1 : (⟨S2x640000, .i32⟩ : BufTy).Contents (Elt Ideal))
  (x2 x3 : (⟨S128x128, .f32⟩ : BufTy).Contents (Elt Ideal)) (x4 : (⟨S128, .f32⟩ : BufTy).Contents (Elt Ideal))

/-- The floored counts laid across the lanes: at (r, k), node r's count floored at one. -/
theorem cntFloor_apply (r : Fin 100000) (k : Fin 128) :
    val_main_v21 (F := Ideal) x1 (ix2 r k) = max (val_main_v17 (F := Ideal) x1 (ix1 r)) Sage.one := by
  have h : idx_main_v20 (idx_main_v21 (ix2 r k)) = ix1 r :=
    funext fun a => Fin.ext (by match a with | ⟨0, _⟩ => rfl)
  rw [val_main_v21_apply, val_main_v20_apply, val_main_v19_apply, val_main_v18_apply, val_main_cst_3_apply, h]
  rfl

/-- The mean rows: the aggregate's entry over the node's floored count. -/
theorem mean_apply (r : Fin 100000) (k : Fin 128) :
    val_main_v22 (F := Ideal) x0 x1 (ix2 r k)
      = Ideal.div (val_main_v13 (F := Ideal) x0 x1 (ix2 r k)) (max (val_main_v17 (F := Ideal) x1 (ix1 r)) Sage.one) := by
  rw [val_main_v22_apply, cntFloor_apply]
  rfl

/-- Before normalisation, entry (r, l) is the specification's linear part of node r at feature l. -/
theorem lin_apply (r : Fin 100000) (l : Fin 128) :
    val_main_v28 (F := Ideal) x0 x1 x2 x3 x4 (ix2 r l)
      = Sage.lin (fun k => val_main_v13 (F := Ideal) x0 x1 (ix2 r k)) (val_main_v17 (F := Ideal) x1 (ix1 r))
          (fun k => x0 (ix2 r k)) (fun k j => x2 (ix2 k j)) (fun k j => x3 (ix2 k j)) (fun j => x4 (ix1 j)) l := by
  have hl : ∀ k, lidx_main_v23 (ix2 r l) k = ix2 r k := fun k =>
    funext fun a => Fin.ext (by match a with | ⟨0, _⟩ => rfl | ⟨1, _⟩ => rfl)
  have hr : ∀ k, ridx_main_v23 (ix2 r l) k = ix2 k l := fun k =>
    funext fun a => Fin.ext (by match a with | ⟨0, _⟩ => rfl | ⟨1, _⟩ => rfl)
  have hl' : ∀ k, lidx_main_v24 (ix2 r l) k = ix2 r k := fun k =>
    funext fun a => Fin.ext (by match a with | ⟨0, _⟩ => rfl | ⟨1, _⟩ => rfl)
  have hr' : ∀ k, ridx_main_v24 (ix2 r l) k = ix2 k l := fun k =>
    funext fun a => Fin.ext (by match a with | ⟨0, _⟩ => rfl | ⟨1, _⟩ => rfl)
  have hb : idx_main_v26 (idx_main_v27 (ix2 r l)) = ix1 l :=
    funext fun a => Fin.ext (by match a with | ⟨0, _⟩ => rfl)
  rw [val_main_v28_apply, val_main_v25_apply, val_main_v23_apply, val_main_v24_apply, val_main_v27_apply,
    val_main_v26_apply, hb]
  simp only [hl, hr, hl', hr', mean_apply]
  rfl

/-- The reference's result is the layer of its aggregate, its counts and its arguments. -/
theorem out_eq :
    val_main_v36 (F := Ideal) x0 x1 x2 x3 x4
      = Sage.layer (val_main_v13 (F := Ideal) x0 x1) (val_main_v17 (F := Ideal) x1) x0 x2 x3 x4 := by
  funext i
  obtain ⟨r, q, rfl⟩ : ∃ (r : Fin 100000) (q : Fin 128), i = ix2 r q := ⟨i 0, i 1, eq_ix2 i⟩
  have h1 : idx_main_v31 (idx_main_v35 (ix2 r q)) = ix1 r :=
    funext fun a => Fin.ext (by match a with | ⟨0, _⟩ => rfl)
  have h2 : ∀ k, idx_main_v30 (ix1 r) k = ix2 r k := fun k =>
    funext fun a => Fin.ext (by match a with | ⟨0, _⟩ => rfl | ⟨1, _⟩ => rfl)
  rw [val_main_v36_apply, val_main_v35_apply, val_main_v34_apply, val_main_v33_apply, val_main_cst_5_apply,
    val_main_v32_apply, val_main_v31_apply, h1, val_main_v30_apply, val_main_cst_4_apply]
  simp only [h2, val_main_v29_apply, lin_apply]
  unfold Sage.layer Sage.row
  simp only [Ideal.hostDivf_def, Ideal.maximumf_def, Ideal.hostUnary_sqrt_def, Ideal.ofBits_def, Ideal.mulf_def,
    Ideal.ofBits_zero_f32, zero_add]

end Cert.ReferenceIdeal.Row

end
-- ==== Proof.LibMatmulPlain.lean ====
/-
  Two general facts about rank-2 blocks at the ideal values, stated for any extents.

  * A kernel's matrix product of an m×k block by a k×n block into the zero accumulator, read at entry (a, b), is the
    plain sum over the contracted coordinate c of A(a, c) · B(c, b), whatever contraction precision the operation
    carries: at the ideal values the product into zero and the host's `dot_general` are the same sum over the
    contraction index, and the library already reads the host's plain product as that sum.
  * A one-row block [1, n] broadcast down m rows, read at (a, b), is the row's entry at column b.
-/
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.LibMatmulPlain

open Idealize.ShloMosaic Idealize.ShloMosaic.ValueIdx

/-- The product of an m×k block by a k×n block into the zero accumulator, at the ideal values, read at (a, b):
    Σ_c A(a, c) · B(c, b). The precision argument plays no part: the ideal product is exact. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec _ A B (ix2 a b)).symm.trans
      (StackMember.dotGeneral_plain_apply prec A B a b))

/-- A one-row block broadcast down the rows, read at (a, b), is the row at column b. -/
theorem rowBroadcast_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 0 b) := by
  refine broadcastTo_apply x h (ix2 a b) (ix2 0 b) fun ax => ?_
  match ax with
  | ⟨0, _⟩ => rfl
  | ⟨1, _⟩ =>
    show b.val = if n = 1 then 0 else b.val
    split
    · have := b.isLt; omega
    · rfl

end Cert.LibMatmulPlain

end
-- ==== Proof.LibColumn.lean ====
/-
  General facts about a rank-1 array kept as a column [m, 1] or as a one-row block [1, n], stated for any extents
  and any element type.

  * A column [m, 1] broadcast across n lanes, read at (a, b), is the column's entry in row a.
  * A rank-1 array [m] recast as the column [m, 1], read at (a, 0), is the array's entry a.
  * A rank-1 array [n] recast as the one-row block [1, n], read at (0, b), is the array's entry b.
  * Summing an [m, n] block along its lane axis into [m]: the source index that the reduced index a and the lane l
    name is (a, l).
-/
import Idealize.ShloMosaic.PureOps.Ideal.Laws
import Idealize.ShloMosaic.Lib.ValueIdx
import Idealize.ShloMosaic.Lib.Pipeline.Value

noncomputable section

namespace Cert.LibColumn

open Idealize.ShloMosaic Idealize.ShloMosaic.ValueIdx

/-- A column broadcast across the lanes, read at (a, b), is the column at row a. -/
theorem colBroadcast_apply {α : Type} {m n : Nat} (x : (⟨2, ![m, 1]⟩ : Shape).Idx → α)
    (h : (⟨2, ![m, 1]⟩ : Shape).Broadcasts ⟨2, ![m, n]⟩) (a : Fin m) (b : Fin n) :
    broadcastTo ⟨2, ![m, n]⟩ x h (ix2 a b) = x (ix2 a 0) := by
  refine broadcastTo_apply x h (ix2 a b) (ix2 a 0) fun ax => ?_
  match ax with
  | ⟨0, _⟩ =>
    show a.val = if m = 1 then 0 else a.val
    split
    · have := a.isLt; omega
    · rfl
  | ⟨1, _⟩ => rfl

/-- A rank-1 array recast as a column, read at (a, 0), is the array at a: both sit at row-major position a. -/
theorem colCast_apply {α : Type} {m : Nat} (x : (⟨1, ![m]⟩ : Shape).Idx → α)
    (h : (⟨1, ![m]⟩ : Shape).ShapeCasts ⟨2, ![m, 1]⟩) (a : Fin m) :
    shapeCast ⟨2, ![m, 1]⟩ x h (ix2 a 0) = x (ix1 a) := by
  refine shapeCast_apply x h (ix2 a 0) (ix1 a) ?_
  rw [Shape.rowMajor_val_two, Shape.rowMajor_val_one]
  show a.val = a.val * 1 + 0
  omega

/-- A rank-1 array recast as a one-row block, read at (0, b), is the array at b: both sit at row-major position b. -/
theorem rowCast_apply {α : Type} {n : Nat} (x : (⟨1, ![n]⟩ : Shape).Idx → α)
    (h : (⟨1, ![n]⟩ : Shape).ShapeCasts ⟨2, ![1, n]⟩) (b : Fin n) :
    shapeCast ⟨2, ![1, n]⟩ x h (ix2 0 b) = x (ix1 b) := by
  refine shapeCast_apply x h (ix2 0 b) (ix1 b) ?_
  rw [Shape.rowMajor_val_two, Shape.rowMajor_val_one]
  show b.val = 0 * n + b.val
  omega

/-- The lane sum of an [m, n] block at the ideal values, read at row a, is the sum over the lanes l of the block at
    (a, l). -/
theorem laneSum_apply {m n : Nat} {φ : FTy} (src : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (a : Fin m) :
    multiReduction .add [1] ⟨1, ![m]⟩ src acc h hφ hacc (ix1 a) = ∑ l : Fin n, src (ix2 a l) := by
  rw [Ideal.multiReduction_add_single]
  refine Finset.sum_congr rfl fun l _ => congrArg src (funext fun ax => Fin.ext ?_)
  match ax with
  | ⟨0, _⟩ => rfl
  | ⟨1, _⟩ => rfl

end Cert.LibColumn

end
-- ==== Proof.KernelRow.lean ====
/-
  What the kernel body stores, read at one entry of its block.

  At a grid point the body holds a block of 10000 nodes: their aggregated rows (A), their counts as a column (N),
  their own feature rows (X), the two weight matrices and the bias as a one-row block. It forms the mean rows
  A / max(N, 1) with the count column broadcast across the lanes, multiplies them into W_l and X into W_r on the matrix
  unit, each product into a zero accumulator, adds the two products and the bias row broadcast down the rows, sums
  the squares along the lanes, takes the root, floors it, broadcasts that column across the lanes and divides.

  Read at (p, q) this is the specification's row function of row p of A, entry p of N and row p of X, at feature q:
  a product into zero is the plain sum over the contracted coordinate, a lane sum is the sum over the lanes, and the
  casts and broadcasts only move entries.
-/
import proofs.«148724_j38010460569664_1_alg».proof.Proof.Gen.KernelIdeal.Skeleton
import proofs.«148724_j38010460569664_1_alg».proof.Proof.LibMatmulPlain
import proofs.«148724_j38010460569664_1_alg».proof.Proof.LibColumn
import proofs.«148724_j38010460569664_1_alg».proof.Proof.SageRow
import Idealize.ShloMosaic.PureOps.Ideal.Laws
import Idealize.ShloMosaic.Lib.ValueIdx
import Idealize.ShloMosaic.Lib.Pipeline.Value

noncomputable section

open scoped BigOperators

namespace Cert.KernelIdeal.Row

open Cert.KernelIdeal Cert.KernelIdeal.Gen Idealize.ShloMosaic Idealize.ShloMosaic.ValueIdx

variable (v0 : Vec Ideal S10000x1 .f32) (v2 : Vec Ideal S10000x128 .f32) (v8 : Vec Ideal S128x128 .f32)
  (v10 : Vec Ideal S10000x128 .f32) (v11 : Vec Ideal S128x128 .f32) (v14 : Vec Ideal S1x128 .f32)

/-- The block of mean rows: each aggregated row over its count, the count floored at one. -/
def meanBlk : FVec Ideal S10000x128 .f32 :=
  divf (shapeCast S10000x128 v2 shapeCasts_S10000x128_S10000x128)
    (broadcastTo S10000x128
      (maximumf (shapeCast S10000x1 v0 shapeCasts_S10000x1_S10000x1) (broadcast S10000x1 (Scalar.ofBits .f32 0x3F800000#32)))
      broadcasts_S10000x1_S10000x128)

/-- The block before normalisation: mean rows through W_l, plus own rows through W_r, plus the bias row. -/
def preBlk : FVec Ideal S10000x128 .f32 :=
  addf
    (addf (matmul (φ₁ := .f32) (φ₂ := .f32) dot_S10000x128_S128x128_S10000x128_1_0_0_1_n_n none (meanBlk v0 v2) v8 (constant S10000x128 .f32 0x00000000#32))
      (matmul (φ₁ := .f32) (φ₂ := .f32) dot_S10000x128_S128x128_S10000x128_1_0_0_1_n_n none v10 v11 (constant S10000x128 .f32 0x00000000#32)))
    (broadcastTo S10000x128 (shapeCast S1x128 v14 shapeCasts_S1x128_S1x128) broadcasts_S1x128_S10000x128)

/-- The stored block is the pre-normalisation block over its rows' floored lengths. -/
theorem pay_eq : k0_pay1 v0 v2 v8 v10 v11 v14
    = divf (preBlk v0 v2 v8 v10 v11 v14)
        (broadcastTo S10000x128
          (maximumf
            (sqrt (shapeCast S10000x1
              (multiReduction .add [1] S10000 (mulf (preBlk v0 v2 v8 v10 v11 v14) (preBlk v0 v2 v8 v10 v11 v14)) 0x00000000#32
                reduces_S10000x128_S10000 (.inl rfl) rfl)
              shapeCasts_S10000_S10000x1))
            (broadcast S10000x1 (Scalar.ofBits .f32 0x2B8CBCCC#32)))
          broadcasts_S10000x1_S10000x128) := rfl

/-- A mean row's entry: the aggregate's entry over the node's floored count. -/
theorem meanBlk_apply (p : Fin 10000) (k : Fin 128) :
    meanBlk v0 v2 (ix2 p k) = Ideal.div (v2 (ix2 p k)) (max (v0 (ix2 p 0)) Sage.one) := by
  unfold meanBlk
  rw [divf_apply, shapeCast_self, Cert.LibColumn.colBroadcast_apply, maximumf_apply, shapeCast_self]
  rfl

/-- The pre-normalisation block at (p, l) is the specification's linear part of node p at feature l. -/
theorem preBlk_apply (p : Fin 10000) (l : Fin 128) :
    preBlk v0 v2 v8 v10 v11 v14 (ix2 p l)
      = Sage.lin (fun k => v2 (ix2 p k)) (v0 (ix2 p 0)) (fun k => v10 (ix2 p k)) (fun k j => v8 (ix2 k j))
          (fun k j => v11 (ix2 k j)) (fun j => v14 (ix2 0 j)) l := by
  unfold preBlk Sage.lin
  rw [addf_apply, addf_apply, shapeCast_self, Cert.LibMatmulPlain.rowBroadcast_apply]
  have e1 := Cert.LibMatmulPlain.matmul_plain_zero_apply (φ₁ := .f32) (φ₂ := .f32) none (meanBlk v0 v2) v8 p l
  have e2 := Cert.LibMatmulPlain.matmul_plain_zero_apply (φ₁ := .f32) (φ₂ := .f32) none v10 v11 p l
  refine congrArg₂ (· + ·) (congrArg₂ (· + ·) (e1.trans ?_) e2) rfl
  exact Finset.sum_congr rfl fun k _ => by rw [meanBlk_apply]

/-- The stored block at (p, q) is the specification's output row of node p at feature q. -/
theorem pay_apply (p : Fin 10000) (q : Fin 128) :
    k0_pay1 v0 v2 v8 v10 v11 v14 (ix2 p q)
      = Sage.row (fun k => v2 (ix2 p k)) (v0 (ix2 p 0)) (fun k => v10 (ix2 p k)) (fun k j => v8 (ix2 k j))
          (fun k j => v11 (ix2 k j)) (fun j => v14 (ix2 0 j)) q := by
  rw [pay_eq]
  unfold Sage.row
  rw [divf_apply, Cert.LibColumn.colBroadcast_apply, maximumf_apply]
  show Ideal.div _ (max (Ideal.sqrt (shapeCast S10000x1 _ shapeCasts_S10000_S10000x1 (ix2 p 0))) Sage.floor) = _
  rw [Cert.LibColumn.colCast_apply]
  refine congrArg₂ Ideal.div (preBlk_apply v0 v2 v8 v10 v11 v14 p q)
    (congrArg (fun s => max (Ideal.sqrt s) Sage.floor) ?_)
  refine (Cert.LibColumn.laneSum_apply _ _ _ _ _ p).trans (Finset.sum_congr rfl fun l _ => ?_)
  rw [mulf_apply, preBlk_apply]

end Cert.KernelIdeal.Row

end
-- ==== Proof.KernelArray.lean ====
/-
  From the kernel's blocks to its result array.

  The grid has ten points; point t works on nodes 10000·t … 10000·t + 9999. Its block of the aggregate, of the count
  column and of the features is rows 10000·t + p of those arrays; the weights and the bias row are the same whole
  arrays at every point. So entry (p, q) of what point t writes back is the layer's value at node 10000·t + p, feature
  q, and since the ten blocks tile the result array (node r lies in block r / 10000) the array after the run IS the
  layer of the arrays the region finds.

  Everything about blocks is first proved for ARBITRARY arrays A, N, X, W_l, W_r, B of the windows' shapes, and only at
  the end read at the arrays the region finds: two of those are results of the host's scatter-add over all edges, and
  nothing here ever asks what such an array holds at an index.
-/
import proofs.«148724_j38010460569664_1_alg».proof.Proof.Gen.KernelIdeal.Value
import proofs.«148724_j38010460569664_1_alg».proof.Proof.KernelRow
import Idealize.ShloMosaic.Lib.Pipeline.Value

noncomputable section

namespace Cert.KernelIdeal.Array

open Cert.KernelIdeal Cert.KernelIdeal.Gen Idealize.ShloMosaic Idealize.ShloMosaic.TcCoe Idealize.SL.Sem
open Idealize.ShloMosaic.ValueIdx
open Idealize.ShloMosaic.Pipeline (Dat)

/-! ## Blocks of arbitrary arrays -/

section Blocks

variable (A X : S100000x128.Idx → EReal) (N : S100000x1.Idx → EReal) (Wl Wr : S128x128.Idx → EReal)
  (B : S1x128.Idx → EReal)

/-- The result array as one function of the six arrays: the layer, with the counts read off their column and the bias
    off its one-row block. -/
def layerOf : S100000x128.Idx → EReal :=
  Sage.layer A (fun j => N (ix2 (j 0) 0)) X Wl Wr (fun j => B (ix2 0 (j 0)))

/-- Each window's block at point t, at its literal type. -/
abbrev blk0 (t : Fin cfg0.N) : Vec Ideal S10000x128 .f32 := ((cfg0.win 0).blk t).view.read (Elt Ideal) A
abbrev blk1 (t : Fin cfg0.N) : Vec Ideal S10000x1 .f32 := ((cfg0.win 1).blk t).view.read (Elt Ideal) N
abbrev blk2 (t : Fin cfg0.N) : Vec Ideal S10000x128 .f32 := ((cfg0.win 2).blk t).view.read (Elt Ideal) X
abbrev blk3 (t : Fin cfg0.N) : Vec Ideal S128x128 .f32 := ((cfg0.win 3).blk t).view.read (Elt Ideal) Wl
abbrev blk4 (t : Fin cfg0.N) : Vec Ideal S128x128 .f32 := ((cfg0.win 4).blk t).view.read (Elt Ideal) Wr
abbrev blk5 (t : Fin cfg0.N) : Vec Ideal S1x128 .f32 := ((cfg0.win 5).blk t).view.read (Elt Ideal) B

/-- The printed index maps, decided over the ten points: the three row-blocked inputs and the output sit at block row
    t, block column 0; the weights and the bias at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row y of point t's block of a row-blocked [100000, 128] array is row 10000·t + y of the array. -/
theorem blk0_apply (t : Fin cfg0.N) (y : S10000x128.Idx) (i : S100000x128.Idx)
    (h0 : (i 0).val = t.val * 10000 + (y 0).val) (h1 : (i 1).val = (y 1).val) : blk0 A t y = A i := by
  obtain ⟨e0, e1, -⟩ := idx_facts t
  have c0 : ((((cfg0.win 0).blk t).view.emb y) (0 : Fin 2) : Nat) = (i 0).val := by
    refine (win0_0.rect_emb_val t y 0).trans ?_
    rw [e0, h0]; rfl
  have c1 : ((((cfg0.win 0).blk t).view.emb y) (1 : Fin 2) : Nat) = (i 1).val := by
    refine (win0_0.rect_emb_val t y 1).trans ?_
    rw [e1, h1, Nat.zero_mul, Nat.zero_add]
  show A (((cfg0.win 0).blk t).view.emb y) = A i
  refine congrArg A (funext fun a => Fin.ext ?_)
  match a with
  | ⟨0, _⟩ => exact c0
  | ⟨1, _⟩ => exact c1

theorem blk1_apply (t : Fin cfg0.N) (y : S10000x1.Idx) (i : S100000x1.Idx)
    (h0 : (i 0).val = t.val * 10000 + (y 0).val) (h1 : (i 1).val = (y 1).val) : blk1 N t y = N i := by
  obtain ⟨-, -, e0, e1, -⟩ := idx_facts t
  have c0 : ((((cfg0.win 1).blk t).view.emb y) (0 : Fin 2) : Nat) = (i 0).val := by
    refine (win0_1.rect_emb_val t y 0).trans ?_
    rw [e0, h0]; rfl
  have c1 : ((((cfg0.win 1).blk t).view.emb y) (1 : Fin 2) : Nat) = (i 1).val := by
    refine (win0_1.rect_emb_val t y 1).trans ?_
    rw [e1, h1, Nat.zero_mul, Nat.zero_add]
  show N (((cfg0.win 1).blk t).view.emb y) = N i
  refine congrArg N (funext fun a => Fin.ext ?_)
  match a with
  | ⟨0, _⟩ => exact c0
  | ⟨1, _⟩ => exact c1

theorem blk2_apply (t : Fin cfg0.N) (y : S10000x128.Idx) (i : S100000x128.Idx)
    (h0 : (i 0).val = t.val * 10000 + (y 0).val) (h1 : (i 1).val = (y 1).val) : blk2 X t y = X i := by
  obtain ⟨-, -, -, -, e0, e1, -⟩ := idx_facts t
  have c0 : ((((cfg0.win 2).blk t).view.emb y) (0 : Fin 2) : Nat) = (i 0).val := by
    refine (win0_2.rect_emb_val t y 0).trans ?_
    rw [e0, h0]; rfl
  have c1 : ((((cfg0.win 2).blk t).view.emb y) (1 : Fin 2) : Nat) = (i 1).val := by
    refine (win0_2.rect_emb_val t y 1).trans ?_
    rw [e1, h1, Nat.zero_mul, Nat.zero_add]
  show X (((cfg0.win 2).blk t).view.emb y) = X i
  refine congrArg X (funext fun a => Fin.ext ?_)
  match a with
  | ⟨0, _⟩ => exact c0
  | ⟨1, _⟩ => exact c1

/-- A weight matrix's block is the matrix, at every point. -/
theorem blk3_apply (t : Fin cfg0.N) (y : S128x128.Idx) : blk3 Wl t y = Wl y := by
  obtain ⟨-, -, -, -, -, -, e0, e1, -⟩ := idx_facts t
  have c0 : ((((cfg0.win 3).blk t).view.emb y) (0 : Fin 2) : Nat) = (y 0).val := by
    refine (win0_3.rect_emb_val t y 0).trans ?_
    rw [e0, Nat.zero_mul, Nat.zero_add]
  have c1 : ((((cfg0.win 3).blk t).view.emb y) (1 : Fin 2) : Nat) = (y 1).val := by
    refine (win0_3.rect_emb_val t y 1).trans ?_
    rw [e1, Nat.zero_mul, Nat.zero_add]
  show Wl (((cfg0.win 3).blk t).view.emb y) = Wl y
  refine congrArg Wl (funext fun a => Fin.ext ?_)
  match a with
  | ⟨0, _⟩ => exact c0
  | ⟨1, _⟩ => exact c1

theorem blk4_apply (t : Fin cfg0.N) (y : S128x128.Idx) : blk4 Wr t y = Wr y := by
  obtain ⟨-, -, -, -, -, -, -, -, e0, e1, -⟩ := idx_facts t
  have c0 : ((((cfg0.win 4).blk t).view.emb y) (0 : Fin 2) : Nat) = (y 0).val := by
    refine (win0_4.rect_emb_val t y 0).trans ?_
    rw [e0, Nat.zero_mul, Nat.zero_add]
  have c1 : ((((cfg0.win 4).blk t).view.emb y) (1 : Fin 2) : Nat) = (y 1).val := by
    refine (win0_4.rect_emb_val t y 1).trans ?_
    rw [e1, Nat.zero_mul, Nat.zero_add]
  show Wr (((cfg0.win 4).blk t).view.emb y) = Wr y
  refine congrArg Wr (funext fun a => Fin.ext ?_)
  match a with
  | ⟨0, _⟩ => exact c0
  | ⟨1, _⟩ => exact c1

/-- The bias row's block is the bias row, at every point. -/
theorem blk5_apply (t : Fin cfg0.N) (y : S1x128.Idx) : blk5 B t y = B y := by
  obtain ⟨-, -, -, -, -, -, -, -, -, -, e0, e1, -⟩ := idx_facts t
  have c0 : ((((cfg0.win 5).blk t).view.emb y) (0 : Fin 2) : Nat) = (y 0).val := by
    refine (win0_5.rect_emb_val t y 0).trans ?_
    rw [e0, Nat.zero_mul, Nat.zero_add]
  have c1 : ((((cfg0.win 5).blk t).view.emb y) (1 : Fin 2) : Nat) = (y 1).val := by
    refine (win0_5.rect_emb_val t y 1).trans ?_
    rw [e1, Nat.zero_mul, Nat.zero_add]
  show B (((cfg0.win 5).blk t).view.emb y) = B y
  refine congrArg B (funext fun a => Fin.ext ?_)
  match a with
  | ⟨0, _⟩ => exact c0
  | ⟨1, _⟩ => exact c1

/-! ## What a point stores -/

/-- Entry y of the block point t stores is the layer at the entry i of the array that y is, row 10000·t + y₀. -/
theorem stored_apply (t : Fin cfg0.N) (y : S10000x128.Idx) (i : S100000x128.Idx)
    (h0 : (i 0).val = t.val * 10000 + (y 0).val) (h1 : (i 1).val = (y 1).val) :
    k0_pay1 (blk1 N t) (blk0 A t) (blk3 Wl t) (blk2 X t) (blk4 Wr t) (blk5 B t) y = layerOf A X N Wl Wr B i := by
  obtain ⟨p, q, rfl⟩ : ∃ (p : Fin 10000) (q : Fin 128), y = ix2 p q := ⟨y 0, y 1, eq_ix2 y⟩
  obtain ⟨r, s, rfl⟩ : ∃ (r : Fin 100000) (s : Fin 128), i = ix2 r s := ⟨i 0, i 1, eq_ix2 i⟩
  obtain rfl : s = q := Fin.ext h1
  rw [Cert.KernelIdeal.Row.pay_apply]
  have ha : (fun k => blk0 A t (ix2 p k)) = fun k => A (ix2 r k) :=
    funext fun k => blk0_apply A t (ix2 p k) (ix2 r k) h0 rfl
  have hn : blk1 N t (ix2 p 0) = N (ix2 r 0) := blk1_apply N t (ix2 p 0) (ix2 r 0) h0 rfl
  have hx : (fun k => blk2 X t (ix2 p k)) = fun k => X (ix2 r k) :=
    funext fun k => blk2_apply X t (ix2 p k) (ix2 r k) h0 rfl
  have hwl : (fun k j => blk3 Wl t (ix2 k j)) = fun k j => Wl (ix2 k j) :=
    funext fun k => funext fun j => blk3_apply Wl t (ix2 k j)
  have hwr : (fun k j => blk4 Wr t (ix2 k j)) = fun k j => Wr (ix2 k j) :=
    funext fun k => funext fun j => blk4_apply Wr t (ix2 k j)
  have hb : (fun j => blk5 B t (ix2 0 j)) = fun j => B (ix2 0 j) := funext fun j => blk5_apply B t (ix2 0 j)
  rw [ha, hn, hx, hwl, hwr, hb]
  rfl

theorem hz : (![0, 0] : Fin 2 → Nat) = fun _ => 0 := funext fun a => by fin_cases a <;> rfl

/-- What the body leaves at point t, cut to the block, is block t of the layer of the six arrays. -/
theorem block_eq (t : Fin cfg0.N) :
    (cfg0.win 6).cut (grid0.coords t) (out0_6 (blk0 A t) (blk1 N t) (blk2 X t) (blk3 Wl t) (blk4 Wr t) (blk5 B t))
      = ((cfg0.win 6).blk t).view.read (Elt Ideal) (layerOf A X N Wl Wr B) := by
  unfold out0_6
  rw [View.canon_unit_zero hz]
  simp only [View.ld_unit_zero (S := S10000x1) hz, View.ld_unit_zero (S := S10000x128) hz,
    View.ld_unit_zero (S := S128x128) hz, View.ld_unit_zero (S := S1x128) hz]
  obtain ⟨-, -, -, -, -, -, -, -, -, -, -, -, e0, e1⟩ := idx_facts t
  funext j
  show k0_pay1 (blk1 N t) (blk0 A t) (blk3 Wl t) (blk2 X t) (blk4 Wr t) (blk5 B t) j
    = layerOf A X N Wl Wr B (((cfg0.win 6).blk t).view.emb j)
  refine stored_apply A X N Wl Wr B t j _ ?_ ?_
  · refine (win0_6.rect_emb_val t j 0).trans ?_
    rw [e0]; rfl
  · refine (win0_6.rect_emb_val t j 1).trans ?_
    rw [e1, Nat.zero_mul, Nat.zero_add]

end Blocks

/-! ## The blocks tile the array -/

theorem mem_blk (t : Fin cfg0.N) (i : S100000x128.Idx) :
    i ∈ ((cfg0.win 6).blk t).view.set ↔ ∀ a : Fin 2, win0_6.index t a * S10000x128.size a ≤ (i a).val
      ∧ (i a).val < win0_6.index t a * S10000x128.size a + S10000x128.size a := by
  show i ∈ ((View.whole main_v20).slice (win0_6.rect t)).set ↔ _
  rw [View.set_slice_whole, Rect.mem_set_unit]
  exact Iff.rfl

/-- Node r's row lies in the block of point r / 10000. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : (i 0).val / 10000 < grid0.N := by rw [N_0]; omega
  obtain ⟨-, -, -, -, -, -, -, -, -, -, -, -, e0, e1⟩ := idx_facts ⟨(i 0).val / 10000, hN⟩
  refine ⟨⟨(i 0).val / 10000, hN⟩, flush0_6 _, ?_⟩
  rw [mem_blk]
  intro a
  match a with
  | ⟨0, _⟩ =>
    show win0_6.index ⟨(i 0).val / 10000, hN⟩ (0 : Fin 2) * 10000 ≤ (i 0).val
      ∧ (i 0).val < win0_6.index ⟨(i 0).val / 10000, hN⟩ (0 : Fin 2) * 10000 + 10000
    rw [e0]; show (i 0).val / 10000 * 10000 ≤ (i 0).val ∧ (i 0).val < (i 0).val / 10000 * 10000 + 10000; omega
  | ⟨1, _⟩ =>
    show win0_6.index ⟨(i 0).val / 10000, hN⟩ (1 : Fin 2) * 128 ≤ (i 1).val
      ∧ (i 1).val < win0_6.index ⟨(i 0).val / 10000, hN⟩ (1 : Fin 2) * 128 + 128
    omega

/-! ## At the arrays the region finds -/

variable (m : (ℓ : Loc nD τ sig) → Buf (Elt Ideal) ℓ) (ρ : Dev nD → PrngReg)

/-- The layer of the arrays the region finds: the aggregate, the features, the count column, the two weight matrices
    and the bias row. -/
def G (c : Dev nD) : S100000x128.Idx → EReal :=
  layerOf (V m c main_v13) (V m c main_arg0) (V m c main_v18) (V m c main_arg2) (V m c main_arg3) (V m c main_v19)

/-- What point t writes back is block t of that layer. -/
theorem flushed_eq (c : Dev nD) (t : Fin cfg0.N) :
    (dats m 0 c).flushed 6 t = ((cfg0.win 6).blk t).view.read (Elt Ideal) (G m c) := by
  rw [Cert.KernelIdeal.Value.flushed6]
  unfold iblk
  exact block_eq (V m c main_v13) (V m c main_arg0) (V m c main_v18) (V m c main_arg2) (V m c main_arg3)
    (V m c main_v19) t

/-- The result array after the run is the layer of the arrays the region finds. -/
theorem final (c : Dev nD) : (dats m 0 c).arrAt 6 cfg0.N = G m c :=
  (dats m 0 c).arrAt_eq_of_cover 6 (G m c) (fun t _ => flushed_eq m c t) cover

end Cert.KernelIdeal.Array

end
-- ==== Proof.HostPrefix.lean ====
/-
  The arrays the kernel's region finds are the reference's own stages.

  Before its one region the kernel's program runs the same host operations the reference starts with: it splits the
  edge list into sources and targets, wraps negative sources, gathers the source rows, scatter-adds them by target
  into a zero array (the aggregate) and scatter-adds ones by target into a zero vector (the counts). The region then
  finds the aggregate as computed, the counts recast as a column, and the bias recast as a one-row block. Read at an
  index, the column and the one-row block are the counts and the bias, so the layer of the arrays the region finds is
  the layer of the reference's aggregate and counts and of the arguments — and that is what the result array holds
  after the run.
-/
import proofs.«148724_j38010460569664_1_alg».proof.Proof.Gen.KernelIdeal.Value
import proofs.«148724_j38010460569664_1_alg».proof.Proof.Gen.ReferenceIdeal.Read
import proofs.«148724_j38010460569664_1_alg».proof.Proof.KernelArray
import proofs.«148724_j38010460569664_1_alg».proof.Proof.LibColumn
import Idealize.ShloMosaic.Lib.StableHlo.Run

noncomputable section

namespace Cert.KernelIdeal.HostPrefix

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- The aggregate the region finds is the reference's aggregate of the launched features and edge list. -/
theorem agg_eq (c : Dev nD) :
    (V m c main_v13 : S100000x128.Idx → EReal)
      = Cert.ReferenceIdeal.Read.val_main_v13 (F := Ideal) (m ((c : Thread nD τ).loc main_arg0)) (m ((c : Thread nD τ).loc main_arg1)) := by
  dsimp only [V, hostOps0]
  after_results
  rfl

/-- The count column the region finds is the reference's counts of the launched edge list, recast as a column. -/
theorem cnt_eq (c : Dev nD) :
    (V m c main_v18 : S100000x1.Idx → EReal)
      = shapeCast S100000x1 (Cert.ReferenceIdeal.Read.val_main_v17 (F := Ideal) (m ((c : Thread nD τ).loc main_arg1)))
          shapeCasts_S100000_S100000x1 := by
  dsimp only [V, hostOps0]
  after_results
  rfl

/-- The bias block the region finds is the launched bias recast as one row. -/
theorem bias_eq (c : Dev nD) :
    (V m c main_v19 : S1x128.Idx → EReal)
      = shapeCast S1x128 (m ((c : Thread nD τ).loc main_arg4) : S128.Idx → EReal) shapeCasts_S128_S1x128 := by
  dsimp only [V, hostOps0]
  after_results
  rfl

/-- The layer of the arrays the region finds is the layer of the reference's aggregate and counts and of the launched
    features, weights and bias. -/
theorem G_eq (c : Dev nD) :
    Cert.KernelIdeal.Array.G m c
      = Sage.layer
          (Cert.ReferenceIdeal.Read.val_main_v13 (F := Ideal) (m ((c : Thread nD τ).loc main_arg0)) (m ((c : Thread nD τ).loc main_arg1)))
          (Cert.ReferenceIdeal.Read.val_main_v17 (F := Ideal) (m ((c : Thread nD τ).loc main_arg1)))
          (m ((c : Thread nD τ).loc main_arg0)) (m ((c : Thread nD τ).loc main_arg2)) (m ((c : Thread nD τ).loc main_arg3))
          (m ((c : Thread nD τ).loc main_arg4)) := by
  have hc : (fun j : (⟨1, ![100000]⟩ : Shape).Idx =>
      shapeCast S100000x1 (Cert.ReferenceIdeal.Read.val_main_v17 (F := Ideal) (m ((c : Thread nD τ).loc main_arg1)))
        shapeCasts_S100000_S100000x1 (ix2 (j 0) 0))
      = Cert.ReferenceIdeal.Read.val_main_v17 (F := Ideal) (m ((c : Thread nD τ).loc main_arg1)) := funext fun j =>
    (Cert.LibColumn.colCast_apply _ _ (j 0)).trans (congrArg _ (eq_ix1 j).symm)
  have hb : (fun j : (⟨1, ![128]⟩ : Shape).Idx =>
      shapeCast S1x128 (m ((c : Thread nD τ).loc main_arg4) : S128.Idx → EReal) shapeCasts_S128_S1x128 (ix2 0 (j 0)))
      = m ((c : Thread nD τ).loc main_arg4) := funext fun j =>
    (Cert.LibColumn.rowCast_apply _ _ (j 0)).trans (congrArg _ (eq_ix1 j).symm)
  unfold Cert.KernelIdeal.Array.G Cert.KernelIdeal.Array.layerOf
  rw [agg_eq, cnt_eq, bias_eq, V_main_arg0, V_main_arg2, V_main_arg3, hc, hb]

/-- The kernel's run: the result array ends at the layer of the reference's aggregate and counts and of the launched
    arguments, which end unchanged. -/
theorem run : θ_run defs (onTc (τ := τ) (main (F := Ideal))) ⟨m, fun _ => 0, ρ⟩ fun r => ∀ c : Dev nD,
      r.2.mem ((c : Thread nD τ).loc main_v20)
        = Sage.layer
            (Cert.ReferenceIdeal.Read.val_main_v13 (F := Ideal) (m ((c : Thread nD τ).loc main_arg0)) (m ((c : Thread nD τ).loc main_arg1)))
            (Cert.ReferenceIdeal.Read.val_main_v17 (F := Ideal) (m ((c : Thread nD τ).loc main_arg1)))
            (m ((c : Thread nD τ).loc main_arg0)) (m ((c : Thread nD τ).loc main_arg2)) (m ((c : Thread nD τ).loc main_arg3))
            (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono
    (fun r h c => ⟨(h c).1.trans ((Cert.KernelIdeal.Array.final m c).trans (G_eq m c)), (h c).2⟩)
    (Cert.KernelIdeal.Value.run_blocks m ρ)

end Cert.KernelIdeal.HostPrefix

end
-- ==== Proof.lean ====
/-
  A mean-aggregating graph layer: the kernel against its reference, over the extended reals.

  Both programs start with the same host operations — split the edge list into sources and targets, wrap negative
  sources, gather the source rows of the features, scatter-add them by target into a zero array (the aggregate), and
  scatter-add ones by target into a zero vector (the in-degree counts). Both then compute, for every node r,

      y_j = Σ_k (agg[r, k] / max(cnt[r], 1)) · W_l[k, j]  +  Σ_k x[r, k] · W_r[k, j]  +  b_j ,
      out[r, j] = y_j / max( sqrt(Σ_l y_l²), floor ),

  the reference on whole arrays on the host, the kernel in ten row blocks of 10000 nodes with the two products on the
  matrix unit. The two apply the same operations in the same grouping, with the same two constants (the words of 1 and
  of the floor), so no law of arithmetic is needed and the inputs' finiteness is never used: a matrix-unit product into
  a zero accumulator and the host's product are the same sum over the contracted coordinate, a lane sum and the host's
  row sum from zero are the same sum over the lanes, and reshapes, broadcasts and the blocking only move entries.

  The specification (one node's row, and the layer as one function of its arrays) is in SageRow; the kernel's stored
  block read at an entry is in KernelRow, its blocks assembled into the result array in KernelArray, and the arrays its
  region finds identified with the reference's own aggregate and counts in HostPrefix; the reference's result read at
  an entry is in RefRow. The three frames are the generated ones (the reference's frame is its run with the result
  dropped), and the idealization rewrote nothing, so its conjunct is trivial.
-/
import proofs.«148724_j38010460569664_1_alg».proof.Defs
import proofs.«148724_j38010460569664_1_alg».proof.Proof.Gen.Kernel
import proofs.«148724_j38010460569664_1_alg».proof.Proof.Gen.Kernel.Skeleton
import proofs.«148724_j38010460569664_1_alg».proof.Proof.Gen.Kernel.Launch
import proofs.«148724_j38010460569664_1_alg».proof.Proof.Gen.Kernel.Points
import proofs.«148724_j38010460569664_1_alg».proof.Proof.Gen.Kernel.Frame
import proofs.«148724_j38010460569664_1_alg».proof.Proof.Gen.KernelIdeal
import proofs.«148724_j38010460569664_1_alg».proof.Proof.Gen.KernelIdeal.Skeleton
import proofs.«148724_j38010460569664_1_alg».proof.Proof.Gen.KernelIdeal.Launch
import proofs.«148724_j38010460569664_1_alg».proof.Proof.Gen.KernelIdeal.Points
import proofs.«148724_j38010460569664_1_alg».proof.Proof.Gen.KernelIdeal.Frame
import proofs.«148724_j38010460569664_1_alg».proof.Proof.Gen.ReferenceIdeal
import proofs.«148724_j38010460569664_1_alg».proof.Proof.Gen.Pre_finite_inputs
import proofs.«148724_j38010460569664_1_alg».proof.Proof.Gen.KernelIdeal.Value
import proofs.«148724_j38010460569664_1_alg».proof.Proof.Gen.ReferenceIdeal.Run
import proofs.«148724_j38010460569664_1_alg».proof.Proof.Gen.ReferenceIdeal.Read
import proofs.«148724_j38010460569664_1_alg».proof.Proof.RefRow
import proofs.«148724_j38010460569664_1_alg».proof.Proof.HostPrefix
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the result at the layer of the reference's aggregate and counts and of the arguments: the
    kernel's by its blocks, the reference's entry by entry, the arguments agreeing. -/
theorem algebraic : Cert.algebraic_KernelIdeal_ReferenceIdeal := by
  intro m ρ m' ρ' _ hagree
  refine ⟨_, Cert.KernelIdeal.HostPrefix.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceIdeal.Row.out_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
